-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S8192 : Shape := ⟨1, ![8192]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x1 .f32) (main_arg1 : FVec F S8192 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x1 : Shape := ⟨2, ![8192, 1]⟩
abbrev S8192 : Shape := ⟨1, ![8192]⟩
abbrev S1x8192 : Shape := ⟨2, ![1, 8192]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩
abbrev S_ : Shape := ⟨0, ![]⟩

abbrev nBuf : Space → Nat
  | .hbm => 12
  | .vmem => 9
  | .smem => 0
  | _ => 0

abbrev bufTy : (tb : Table) → Fin (tcTables nBuf tb) → BufTy
  | .hbm, ⟨0, _⟩ => ⟨S8192x1, .f32⟩
  | .hbm, ⟨1, _⟩ => ⟨S8192, .f32⟩
  | .hbm, ⟨2, _⟩ => ⟨S8192, .f32⟩
  | .hbm, ⟨3, _⟩ => ⟨S8192x1, .f32⟩
  | .hbm, ⟨4, _⟩ => ⟨S1x8192, .f32⟩
  | .hbm, ⟨5, _⟩ => ⟨S8192x1, .f32⟩
  | .hbm, ⟨6, _⟩ => ⟨S1x8192, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S8192x1_S8192 : S8192x1.ShapeCasts S8192
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  bcast_S_S1 : S_.BroadcastsInDim S1 (![] : Fin 0 → Fin S1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v1) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S_ : Shape := ⟨0, ![]⟩
abbrev S1 : Shape := ⟨1, ![1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192, .f32⟩
  | .hbm, ⟨2, _⟩ => ⟨S8192, .f32⟩
  | .hbm, ⟨3, _⟩ => ⟨S8192x1, .f32⟩
  | .hbm, ⟨4, _⟩ => ⟨S1x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S8192x8192, .f32⟩
  | .hbm, ⟨22, _⟩ => ⟨S8192x1, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S1 : S_.BroadcastsInDim S1 (![] : Fin 0 → Fin S1.rank)

variable [Facts₀]

class Facts : Prop extends Facts₀ where

variable [Facts]
-- ==== Proof.PairSum.lean ====
/-
  The pairwise ranking loss as ONE function of the two argument arrays, over the extended reals.

  For scores `o` and labels `g` (8192 of each) the term of the ordered pair (i, j) is
      w(i, j) · max(0, 1 + y(i, j) · (oᵢ - oⱼ)),
  with  y(i, j) = -1 if gᵢ - gⱼ < 0 and +1 otherwise,  w(i, j) = 1 if |gᵢ - gⱼ| > 0.1 and 0 otherwise,
  and the loss is the sum of all 8192² terms, from the zero, divided by 8192 · 8191.

  Both programs compute exactly this; they differ only in how the 8192² terms are grouped: the reference adds them in
  one sum over the square, the kernel cuts the square into 8 × 8 tiles of 1024 × 1024, sums each tile by rows, and
  adds the 64 tile sums one after the other.  Addition of extended reals is commutative and associative (infinities
  included), so the two groupings give the same extended real (the regrouping law is proved in its own module).
-/
import Idealize.ShloMosaic.PureOps.Ideal
import Idealize.ShloMosaic.PureOps.Ideal.Laws
import Idealize.ShloMosaic.Lib.ValueIdx
import Mathlib.Algebra.BigOperators.Fin

noncomputable section

namespace Cert.PairLoss

open Idealize.ShloMosaic Idealize.ShloMosaic.ValueIdx

/-- The term of one ordered pair: the scores `oi`, `oj` and the labels `gi`, `gj` of its two members. The four
    constants are the f32 words of 0.1, 0, 1 and -1, kept as words: the same word stands on both sides. -/
def pairTerm (oi oj gi gj : Ideal .f32) : Ideal .f32 :=
  FloatOps.mulf
    (FloatOps.uitofp .f32 (FloatOps.cmpf .ogt (FloatOps.absf (FloatOps.subf gi gj)) (FloatOps.ofBits .f32 0x3DCCCCCD#32)))
    (FloatOps.maximumf (FloatOps.ofBits .f32 0x00000000#32)
      (FloatOps.addf (FloatOps.ofBits .f32 0x3F800000#32)
        (FloatOps.mulf
          (Scalar.select (FloatOps.cmpf .olt (FloatOps.subf gi gj) (FloatOps.ofBits .f32 0x00000000#32))
            (FloatOps.ofBits .f32 0xBF800000#32) (FloatOps.ofBits .f32 0x3F800000#32))
          (FloatOps.subf oi oj))))

/-- The scores as a function of the position: column 0 of the [8192, 1] argument. -/
abbrev score (x0 : (⟨2, ![8192, 1]⟩ : Shape).Idx → Ideal .f32) (i : Fin 8192) : Ideal .f32 := x0 (ix2 i (0 : Fin 1))
/-- The labels as a function of the position. -/
abbrev label (x1 : (⟨1, ![8192]⟩ : Shape).Idx → Ideal .f32) (i : Fin 8192) : Ideal .f32 := x1 (ix1 i)

/-- The term of the pair (i, j) of the two arrays. -/
def term (x0 : (⟨2, ![8192, 1]⟩ : Shape).Idx → Ideal .f32) (x1 : (⟨1, ![8192]⟩ : Shape).Idx → Ideal .f32)
    (i j : Fin 8192) : Ideal .f32 :=
  pairTerm (score x0 i) (score x0 j) (label x1 i) (label x1 j)

/-- The sum of all the terms. -/
def total (x0 : (⟨2, ![8192, 1]⟩ : Shape).Idx → Ideal .f32) (x1 : (⟨1, ![8192]⟩ : Shape).Idx → Ideal .f32) : EReal :=
  ∑ i : Fin 8192, ∑ j : Fin 8192, term x0 x1 i j

/-- The loss, as the [1] array both programs return: the sum of the terms over the number of ordered pairs
    8192 · 8191 = 67100672 (an f32 word exactly). -/
def loss (x0 : (⟨2, ![8192, 1]⟩ : Shape).Idx → Ideal .f32) (x1 : (⟨1, ![8192]⟩ : Shape).Idx → Ideal .f32) :
    (⟨1, ![1]⟩ : Shape).Idx → Ideal .f32 :=
  fun _ => FloatOps.hostDivf (total x0 x1) (FloatOps.ofBits .f32 0x4C7FF800#32)

/-- Row (or column) `r` of tile `a`: position 1024 · a + r. -/
def tileIdx (a : Fin 8) (r : Fin 1024) : Fin 8192 := ⟨1024 * a.val + r.val, by have := a.isLt; have := r.isLt; omega⟩

/-- The tile (row of tiles, column of tiles) the kernel visits at step `t` of its 64: row-major. -/
def tileRow (t : Fin 64) : Fin 8 := ⟨t.val / 8, by have := t.isLt; omega⟩
def tileCol (t : Fin 64) : Fin 8 := ⟨t.val % 8, by omega⟩

end Cert.PairLoss

end
-- ==== Proof.RefSide.lean ====
/-
  The reference computes the loss of `Cert.PairLoss`.

  Read one operation at a time, the reference forms the 8192 × 8192 arrays of label differences gᵢ - gⱼ and of score
  differences oᵢ - oⱼ (each argument broadcast along one axis of the square), from them the sign y, the weight w and
  the hinge, entry by entry, sums w · hinge over the whole square from the zero, and divides by the number of ordered
  pairs. Entry (i, j) of the summed array is `term x0 x1 i j`; the sum over the square's index set is the double sum
  over its two coordinates; and the zero the sum starts from is the extended real 0.
-/
import proofs.«147201_j32341103739407_1_alg».proof.Proof.Gen.ReferenceIdeal.Read
import proofs.«147201_j32341103739407_1_alg».proof.Proof.PairSum
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Read Cert.PairLoss

/-- Entry (i, j) of the array the reference sums is the term of the pair (i, j). -/
theorem summand_apply (x0 : (⟨S8192x1, .f32⟩ : BufTy).Contents (Elt Ideal)) (x1 : (⟨S8192, .f32⟩ : BufTy).Contents (Elt Ideal))
    (i j : Fin 8192) : val_main_v24 (F := Ideal) x0 x1 (ix2 i j) = term x0 x1 i j := by
  -- where each broadcast reads its operand, at the entry (i, j) of the square:
  -- the labels along the rows read position i, along the columns position j; so do the scores, through column 0
  have hg_row : idx_main_v1 (idx_main_v3 (ix2 i j)) = ix1 i := by
    funext a; match a with | ⟨0, _⟩ => rfl
  have hg_col : idx_main_v2 (idx_main_v4 (ix2 i j)) = ix1 j := by
    funext a; match a with | ⟨0, _⟩ => rfl
  have ho_row : idx_main_v0 (idx_main_v14 (idx_main_v16 (ix2 i j))) = ix2 i (0 : Fin 1) := by
    funext a; match a with
    | ⟨0, _⟩ => exact Fin.ext (Nat.div_one _)
    | ⟨1, _⟩ => rfl
  have ho_col : idx_main_v0 (idx_main_v15 (idx_main_v17 (ix2 i j))) = ix2 j (0 : Fin 1) := by
    funext a; match a with
    | ⟨0, _⟩ => exact Fin.ext (Nat.div_one _)
    | ⟨1, _⟩ => rfl
  -- the entry, read one operation at a time down to the two arguments
  simp only [val_main_v24_apply, val_main_v13_apply, val_main_v12_apply, val_main_v10_apply, val_main_v5_apply,
    val_main_v3_apply, val_main_v1_apply, val_main_v4_apply, val_main_v2_apply, val_main_v11_apply,
    val_main_cst_2_apply, val_main_v23_apply, val_main_v22_apply, val_main_cst_4_apply, val_main_v21_apply,
    val_main_v20_apply, val_main_cst_3_apply, val_main_v19_apply, val_main_v9_apply, val_main_v8_apply,
    val_main_v7_apply, val_main_v6_apply, val_main_cst_apply, val_main_call0_v0_apply, val_main_cst_0_apply,
    val_main_call0_v1_apply, val_main_cst_1_apply, val_main_v18_apply, val_main_v16_apply, val_main_v14_apply,
    val_main_v0_apply, val_main_v17_apply, val_main_v15_apply]
  rw [hg_row, hg_col, ho_row, ho_col]
  -- on the extended reals the host's absolute value is the absolute value
  rfl

/-- The reference's result is the loss. -/
theorem result_eq (x0 : (⟨S8192x1, .f32⟩ : BufTy).Contents (Elt Ideal)) (x1 : (⟨S8192, .f32⟩ : BufTy).Contents (Elt Ideal)) :
    val_main_v27 (F := Ideal) x0 x1 = loss x0 x1 := by
  funext k
  -- the one entry of the result: the sum over the square, from the initial value, divided by the number of pairs
  rw [val_main_v27_apply, val_main_v26_apply, val_main_v25_apply, val_main_cst_5_apply, val_main_cst_6_apply]
  -- the sum over the square's index set is the double sum over its coordinates, and entry (i, j) is the pair's term
  have hsum : ∑ m : S8192x8192.Idx, val_main_v24 (F := Ideal) x0 x1 m = total x0 x1 := by
    rw [sum_idx2]
    exact Finset.sum_congr rfl fun a _ => Finset.sum_congr rfl fun b _ => summand_apply x0 x1 a b
  -- the initial value is the extended real 0, which adds nothing
  show FloatOps.hostDivf (Ideal.ofBits .f32 0x00000000#32 + ∑ m : S8192x8192.Idx, val_main_v24 (F := Ideal) x0 x1 m)
      (FloatOps.ofBits .f32 0x4C7FF800#32) = loss x0 x1 k
  rw [Ideal.ofBits_zero_f32, zero_add, hsum]
  rfl

end Cert.ReferenceIdeal.RefValue

end
-- ==== Proof.TileSum.lean ====
/-
  The regrouping law: a sum over the 8192 × 8192 square is the sum, over the 64 tiles of 1024 × 1024 taken row-major,
  of each tile's sum by rows.  Position 1024 · a + r of the square's side is row (or column) r of tile a, and every
  position is of this form in exactly one way; so the tiles' entries are the square's entries, each met once, and in a
  commutative monoid the order and the grouping of a finite sum do not matter.
-/
import proofs.«147201_j32341103739407_1_alg».proof.Proof.PairSum
import Mathlib.Algebra.BigOperators.Fin
import Mathlib.Logic.Equiv.Fin.Basic

noncomputable section

namespace Cert.PairLoss

open Idealize.ShloMosaic

/-- One side of the square: every position is 1024 · a + r for exactly one tile a and one place r in it, so a sum over
    the 8192 positions is the sum over the 8 tiles of the sums over the 1024 places of each. The bijection
    (a, r) ↦ r + 1024 · a between pairs and positions carries the one sum to the other. -/
theorem sum_side {M : Type*} [AddCommMonoid M] (g : Fin 8192 → M) :
    ∑ i : Fin 8192, g i = ∑ a : Fin 8, ∑ r : Fin 1024, g (tileIdx a r) := by
  calc ∑ i : Fin 8192, g i
      = ∑ x : Fin 8 × Fin 1024, g ((finProdFinEquiv : Fin 8 × Fin 1024 ≃ Fin 8192) x) :=
        (Equiv.sum_comp (finProdFinEquiv : Fin 8 × Fin 1024 ≃ Fin 8192) g).symm
    _ = ∑ a : Fin 8, ∑ r : Fin 1024, g ((finProdFinEquiv : Fin 8 × Fin 1024 ≃ Fin 8192) (a, r)) :=
        Fintype.sum_prod_type _
    _ = ∑ a : Fin 8, ∑ r : Fin 1024, g (tileIdx a r) := by
        refine Finset.sum_congr rfl fun a _ => Finset.sum_congr rfl fun r _ => ?_
        congr 1
        apply Fin.ext
        show r.val + 1024 * a.val = 1024 * a.val + r.val
        omega

/-- The 64 steps: step t = 8 · a + b visits the tile in row a and column b of the 8 × 8 grid of tiles, and every tile
    is visited at exactly one step; so a sum over the steps is the double sum over the grid. -/
theorem sum_steps {M : Type*} [AddCommMonoid M] (h : Fin 8 → Fin 8 → M) :
    ∑ t : Fin 64, h (tileRow t) (tileCol t) = ∑ a : Fin 8, ∑ b : Fin 8, h a b := by
  calc ∑ t : Fin 64, h (tileRow t) (tileCol t)
      = ∑ x : Fin 8 × Fin 8, h (tileRow ((finProdFinEquiv : Fin 8 × Fin 8 ≃ Fin 64) x))
          (tileCol ((finProdFinEquiv : Fin 8 × Fin 8 ≃ Fin 64) x)) :=
        (Equiv.sum_comp (finProdFinEquiv : Fin 8 × Fin 8 ≃ Fin 64) (fun t => h (tileRow t) (tileCol t))).symm
    _ = ∑ a : Fin 8, ∑ b : Fin 8, h (tileRow ((finProdFinEquiv : Fin 8 × Fin 8 ≃ Fin 64) (a, b)))
          (tileCol ((finProdFinEquiv : Fin 8 × Fin 8 ≃ Fin 64) (a, b))) :=
        Fintype.sum_prod_type _
    _ = ∑ a : Fin 8, ∑ b : Fin 8, h a b := by
        refine Finset.sum_congr rfl fun a _ => Finset.sum_congr rfl fun b _ => ?_
        have hr : tileRow ((finProdFinEquiv : Fin 8 × Fin 8 ≃ Fin 64) (a, b)) = a := by
          apply Fin.ext
          show (b.val + 8 * a.val) / 8 = a.val
          have := b.isLt
          omega
        have hc : tileCol ((finProdFinEquiv : Fin 8 × Fin 8 ≃ Fin 64) (a, b)) = b := by
          apply Fin.ext
          show (b.val + 8 * a.val) % 8 = b.val
          have := b.isLt
          omega
        rw [hr, hc]

/-- THE REGROUPING. The 64 tile sums, each taken by rows, add up to the sum over the whole square: every pair (i, j)
    lies in exactly one tile, at exactly one place. -/
theorem sum_tiles {M : Type*} [AddCommMonoid M] (f : Fin 8192 → Fin 8192 → M) :
    ∑ t : Fin 64, ∑ p : Fin 1024, ∑ q : Fin 1024, f (tileIdx (tileRow t) p) (tileIdx (tileCol t) q)
      = ∑ i : Fin 8192, ∑ j : Fin 8192, f i j := by
  -- the steps become the grid of tiles
  rw [sum_steps (fun a b => ∑ p : Fin 1024, ∑ q : Fin 1024, f (tileIdx a p) (tileIdx b q))]
  -- the square's rows, then each row's columns, are cut into tiles
  rw [sum_side (fun i => ∑ j : Fin 8192, f i j)]
  refine Finset.sum_congr rfl fun a _ => ?_
  -- for a fixed row of tiles: (column of tiles, row in the tile) against (row in the tile, column of tiles)
  rw [Finset.sum_comm]
  refine Finset.sum_congr rfl fun p _ => ?_
  rw [sum_side (fun j => f (tileIdx a p) j)]

end Cert.PairLoss

end
-- ==== Proof.TileValue.lean ====
/-
  The tile sum: what the kernel's body computes from its four input blocks at one step.

  From a column block of scores `a` and a row block of scores `b` (1024 each), and the same of labels `c`, `d`, the
  body forms the 1024 × 1024 array whose entry (p, q) is the term of the pair (row p, column q) — the two columns
  broadcast along the rows, the two rows along the columns, then the sign, the weight and the hinge entry by entry —,
  sums each row over its 1024 columns, and sums the 1024 row sums.  Over the extended reals a reduction by addition is
  the plain finite sum, so the result, at its one index, is ∑ₚ ∑_q term(p, q).

  The kernel spells the weight `float(widen(|c - d| > 0.1))`: the 1-bit comparison widened to 32 bits by zeros and read
  as a signed integer.  A 32-bit word that is 0 or 1 is the same integer signed or unsigned, so this is the reference's
  `float(|c - d| > 0.1)` of the 1-bit word read unsigned.
-/
import proofs.«147201_j32341103739407_1_alg».proof.Proof.Gen.KernelIdeal.Skeleton
import proofs.«147201_j32341103739407_1_alg».proof.Proof.PairSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileValue

open Idealize.ShloMosaic Idealize.ShloMosaic.ValueIdx
open Cert.KernelIdeal Cert.KernelIdeal.Gen Cert.PairLoss

/-- A 1-bit word widened by zeros to 32 bits and read as a signed integer is the bit. -/
theorem widen_toInt (b : BitVec 1) : (b.setWidth 32).toInt = (b.toNat : ℤ) := by
  revert b; decide

/-- So the kernel's weight word is the reference's: both are the bit as an extended real. -/
theorem weight_eq (b : BitVec 1) :
    FloatOps.sitofp (F := Ideal) .f32 (b.setWidth 32) = FloatOps.uitofp (F := Ideal) .f32 b := by
  show (((b.setWidth 32).toInt : ℝ) : EReal) = ((b.toNat : ℝ) : EReal)
  rw [widen_toInt, Int.cast_natCast]

/-- A column `[a, 1]` broadcast to `[a, b]` reads, at `(p, q)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum of each row of a `[1024, 1024]` array over its columns, as the kernel's lane reduction reads over the
    extended reals. -/
theorem rowSums_apply (v : FVec Ideal S1024x1024 .f32) (hφ : FKind.Formats .f32)
    (hacc : (0x00000000#32 : BitVec 32) = 0x00000000#32) (p : Fin 1024) :
    multiReduction .add [1] S1024 v 0x00000000#32 reduces_S1024x1024_S1024 hφ hacc (ix1 p)
      = ∑ q : Fin 1024, v (ix2 p q) := by
  refine (Ideal.multiReduction_add_single v 0x00000000#32 reduces_S1024x1024_S1024 hφ hacc (ix1 p)).trans ?_
  refine Finset.sum_congr rfl fun q _ => congrArg v ?_
  funext ax
  match ax with
  | ⟨0, _⟩ => rfl
  | ⟨1, _⟩ => rfl

/-- The sum of a `[1024, 1]` column, as the kernel's second reduction reads over the extended reals. -/
theorem colSum_apply (v : FVec Ideal S1024x1 .f32) (hφ : FKind.Formats .f32)
    (hacc : (0x00000000#32 : BitVec 32) = 0x00000000#32) (j : S1.Idx) :
    multiReduction .add [0] S1 v 0x00000000#32 reduces_S1024x1_S1 hφ hacc j
      = ∑ p : Fin 1024, v (ix2 p (0 : Fin 1)) := by
  refine (Ideal.multiReduction_add_single v 0x00000000#32 reduces_S1024x1_S1 hφ hacc j).trans ?_
  refine Finset.sum_congr rfl fun p _ => congrArg v ?_
  funext ax
  match ax with
  | ⟨0, _⟩ => rfl
  | ⟨1, _⟩ => exact Subsingleton.elim (α := Fin 1) _ _

/-- The row sums laid out as a column: `[1024]` to `[1024, 1]` keeps entry `p` at `(p, 0)`. -/
theorem asColumn_apply {α : Type} (v : S1024.Idx → α) (p : Fin 1024) :
    shapeCast S1024x1 v shapeCasts_S1024_S1024x1 (ix2 p (0 : Fin 1)) = v (ix1 p) := by
  refine shapeCast_apply v shapeCasts_S1024_S1024x1 (ix2 p (0 : Fin 1)) (ix1 p) ?_
  rw [Shape.rowMajor_val_two, Shape.rowMajor_val_one]
  show p.val = p.val * 1 + 0
  omega

/-- The term as the kernel spells it: the weight by widening the 1-bit comparison and reading it signed. -/
def pairTermK (oi oj gi gj : Ideal .f32) : Ideal .f32 :=
  FloatOps.mulf
    (FloatOps.sitofp .f32
      ((FloatOps.cmpf .ogt (FloatOps.absf (FloatOps.subf gi gj)) (FloatOps.ofBits .f32 0x3DCCCCCD#32)).setWidth 32))
    (FloatOps.maximumf (FloatOps.ofBits .f32 0x00000000#32)
      (FloatOps.addf (FloatOps.ofBits .f32 0x3F800000#32)
        (FloatOps.mulf
          (Scalar.select (FloatOps.cmpf .olt (FloatOps.subf gi gj) (FloatOps.ofBits .f32 0x00000000#32))
            (FloatOps.ofBits .f32 0xBF800000#32) (FloatOps.ofBits .f32 0x3F800000#32))
          (FloatOps.subf oi oj))))

/-- It is the term. -/
theorem pairTermK_eq (oi oj gi gj : Ideal .f32) : pairTermK oi oj gi gj = pairTerm oi oj gi gj := by
  unfold pairTermK pairTerm
  rw [weight_eq]

/-- THE TILE SUM, at the result's one index. -/
theorem tileSum_apply (x0 : Vec Ideal S1024x1 .f32) (x1 : Vec Ideal S1x1024 .f32) (x2 : Vec Ideal S1024x1 .f32)
    (x3 : Vec Ideal S1x1024 .f32) (j : S1.Idx) :
    k0_pay3 (F := Ideal) x0 x1 x2 x3 j
      = ∑ p : Fin 1024, ∑ q : Fin 1024,
          pairTerm (x0 (ix2 p (0 : Fin 1))) (x1 (ix2 (0 : Fin 1) q)) (x2 (ix2 p (0 : Fin 1))) (x3 (ix2 (0 : Fin 1) q)) := by
  unfold k0_pay3
  dsimp only
  refine (colSum_apply _ _ _ j).trans ?_
  refine Finset.sum_congr rfl fun p _ => ?_
  refine (asColumn_apply _ p).trans ?_
  refine (rowSums_apply _ _ _ p).trans ?_
  refine Finset.sum_congr rfl fun q _ => ?_
  have e0 : broadcastTo S1024x1024 (shapeCast S1024x1 x0 shapeCasts_S1024x1_S1024x1) broadcasts_S1024x1_S1024x1024 (ix2 p q)
      = x0 (ix2 p (0 : Fin 1)) := by
    rw [shapeCast_self]; exact broadcastTo_a1_ab_apply x0 _ p q
  have e1 : broadcastTo S1024x1024 (shapeCast S1x1024 x1 shapeCasts_S1x1024_S1x1024) broadcasts_S1x1024_S1024x1024 (ix2 p q)
      = x1 (ix2 (0 : Fin 1) q) := by
    rw [shapeCast_self]; exact broadcastTo_1b_ab_apply x1 _ p q
  have e2 : broadcastTo S1024x1024 (shapeCast S1024x1 x2 shapeCasts_S1024x1_S1024x1) broadcasts_S1024x1_S1024x1024 (ix2 p q)
      = x2 (ix2 p (0 : Fin 1)) := by
    rw [shapeCast_self]; exact broadcastTo_a1_ab_apply x2 _ p q
  have e3 : broadcastTo S1024x1024 (shapeCast S1x1024 x3 shapeCasts_S1x1024_S1x1024) broadcasts_S1x1024_S1024x1024 (ix2 p q)
      = x3 (ix2 (0 : Fin 1) q) := by
    rw [shapeCast_self]; exact broadcastTo_1b_ab_apply x3 _ p q
  show pairTermK
      (broadcastTo S1024x1024 (shapeCast S1024x1 x0 shapeCasts_S1024x1_S1024x1) broadcasts_S1024x1_S1024x1024 (ix2 p q))
      (broadcastTo S1024x1024 (shapeCast S1x1024 x1 shapeCasts_S1x1024_S1x1024) broadcasts_S1x1024_S1024x1024 (ix2 p q))
      (broadcastTo S1024x1024 (shapeCast S1024x1 x2 shapeCasts_S1024x1_S1024x1) broadcasts_S1024x1_S1024x1024 (ix2 p q))
      (broadcastTo S1024x1024 (shapeCast S1x1024 x3 shapeCasts_S1x1024_S1x1024) broadcasts_S1x1024_S1024x1024 (ix2 p q)) = _
  rw [e0, e1, e2, e3, pairTermK_eq]

end Cert.KernelIdeal.TileValue

end
-- ==== Proof.Pieces.lean ====
/-
  What one step of the kernel leaves in the [1, 1] accumulator, as a value.

  The body computes the step's tile sum s from its four input blocks and stores (old + s) into the accumulator, where
  `old` is what the accumulator held when the body read it.  At the first step the body has just overwritten the
  accumulator with the zero block, so it reads that zero back and leaves 0 + s; at every other step the accumulator
  still holds what the step before left, `xo`, and the body leaves xo + s.  Both are read off the stores the body makes:
  the last store to a cell is what the cell ends holding.
-/
import proofs.«147201_j32341103739407_1_alg».proof.Proof.Gen.KernelIdeal.Frame
import Idealize.ShloMosaic.Lib.Pipeline.Value
import Idealize.ShloMosaic.Lib.Tactic

set_option maxRecDepth 16384

noncomputable section
namespace Cert.KernelIdeal.Pieces
open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

theorem out_B (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .f32) (h4 : a4.IsWhole) (a5 : Memref sig .tc .vmem S1x1024 .f32) (h5 : a5.IsWhole) (a6 : Memref sig .tc .vmem S1x1 .f32) (h6 : a6.IsWhole) (hc : ¬cond0_0 i)
    (x0 : Vec F S1024x1 .f32) (x1 : Vec F S1x1024 .f32) (x2 : Vec F S1024x1 .f32) (x3 : Vec F S1x1024 .f32) (xo : Vec F S1x1 .f32) :
    out0_B_4 c i a2 h2 a3 h3 a4 h4 a5 h5 a6 h6 hc x0 x1 x2 x3 xo = k0_pay1 (k0_pay3 x0 x1 x2 x3) xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz]
  simp only [View.readAt_eq_ld, h2.read_unread, h3.read_unread, h4.read_unread, h5.read_unread, h6.read_unread,
    View.ld_unit_zero (S := S1024x1) hz, View.ld_unit_zero (S := S1x1024) hz, View.ld_unit_zero (S := S1x1) hz]

theorem out_A (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .f32) (h4 : a4.IsWhole) (a5 : Memref sig .tc .vmem S1x1024 .f32) (h5 : a5.IsWhole) (a6 : Memref sig .tc .vmem S1x1 .f32) (h6 : a6.IsWhole) (hc : cond0_0 i)
    (x0 : Vec F S1024x1 .f32) (x1 : Vec F S1x1024 .f32) (x2 : Vec F S1024x1 .f32) (x3 : Vec F S1x1024 .f32) :
    out0_A_4 c i a2 h2 a3 h3 a4 h4 a5 h5 a6 h6 hc x0 x1 x2 x3 = k0_pay1 (k0_pay3 x0 x1 x2 x3) (k0_pay2 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread, h6.read_unread,
    View.ld_unit_zero (S := S1024x1) hz, View.ld_unit_zero (S := S1x1024) hz, View.ld_unit_zero (S := S1x1) hz]

end Cert.KernelIdeal.Pieces
end
-- ==== Proof.Blocks.lean ====
/-
  What the kernel's four input windows hold at step t of the grid, entry by entry.

  Before the region the host lays the two arguments out four ways: the scores as a column [8192, 1] and as a row
  [1, 8192], the labels likewise (reshapes: the same 8192 numbers in the same order). At step t = 8 · a + b the kernel
  is handed rows 1024 · a … 1024 · a + 1023 of the two columns and columns 1024 · b … 1024 · b + 1023 of the two rows.
  So entry p of a column block is the score (or label) at position 1024 · a + p, and entry q of a row block the one at
  position 1024 · b + q.
-/
import proofs.«147201_j32341103739407_1_alg».proof.Proof.Gen.KernelIdeal.Frame
import proofs.«147201_j32341103739407_1_alg».proof.Proof.PairSum
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen Cert.PairLoss

variable (m : (ℓ : Loc nD τ sig) → Buf (Elt Ideal) ℓ)

/-- The grid has 64 steps: a step as a number below 64. -/
abbrev step (t : Fin cfg0.N) : Fin 64 := Fin.cast N_0 t

/-- The four input blocks at step `t`, at their literal types. -/
abbrev scoreCol (c : Dev nD) (t : Fin cfg0.N) : Vec Ideal S1024x1 .f32 := iblk m c 0 t
abbrev scoreRow (c : Dev nD) (t : Fin cfg0.N) : Vec Ideal S1x1024 .f32 := iblk m c 1 t
abbrev labelCol (c : Dev nD) (t : Fin cfg0.N) : Vec Ideal S1024x1 .f32 := iblk m c 2 t
abbrev labelRow (c : Dev nD) (t : Fin cfg0.N) : Vec Ideal S1x1024 .f32 := iblk m c 3 t

/-- The two arguments as the program was launched with them. -/
abbrev arg0 (c : Dev nD) : (⟨2, ![8192, 1]⟩ : Shape).Idx → Ideal .f32 := m ((c.tc : Thread nD τ).loc main_arg0)
abbrev arg1 (c : Dev nD) : (⟨1, ![8192]⟩ : Shape).Idx → Ideal .f32 := m ((c.tc : Thread nD τ).loc main_arg1)

/-- Where each window's block sits in its array at step t, decided once over the 64 steps: a column block is block
    number t / 8 along the rows, a row block is block number t % 8 along the columns (the grid is 8 × 8, row-major). -/
theorem idx_col0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx_row1 : ∀ t : Fin cfg0.N, win0_1.index t 0 = 0 ∧ win0_1.index t 1 = t.val % 8 :=
  (by decide +kernel : ∀ t : Fin grid0.N, win0_1.index t 0 = 0 ∧ win0_1.index t 1 = t.val % 8)
theorem idx_col2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx_row3 : ∀ t : Fin cfg0.N, win0_3.index t 0 = 0 ∧ win0_3.index t 1 = t.val % 8 :=
  (by decide +kernel : ∀ t : Fin grid0.N, win0_3.index t 0 = 0 ∧ win0_3.index t 1 = t.val % 8)

/-! ## A block's entry is its array's entry: block number × block extent + the place inside the block, axis by axis -/

theorem scoreCol_read (c : Dev nD) (t : Fin cfg0.N) (y : S1024x1.Idx) (i : S8192x1.Idx)
    (h0 : (i 0).val = 1024 * (t.val / 8) + (y 0).val) (h1 : (i 1).val = 0) :
    scoreCol m c t y = V m c main_v1 i := by
  show iblk m c 0 t y = _
  unfold iblk
  rw [View.read_apply]
  show V m c main_v1 _ = _
  congr 1
  funext a
  apply Fin.ext
  match a with
  | ⟨0, _⟩ => show win0_0.index t 0 * 1024 + 1 * (y 0).val = (i 0).val; rw [(idx_col0 t).1, h0]; omega
  | ⟨1, _⟩ => show win0_0.index t 1 * 1 + 1 * (y 1).val = (i 1).val; rw [(idx_col0 t).2, h1]; have hy : (y 1).val < 1 := (y 1).isLt; omega

theorem scoreRow_read (c : Dev nD) (t : Fin cfg0.N) (y : S1x1024.Idx) (i : S1x8192.Idx)
    (h0 : (i 0).val = 0) (h1 : (i 1).val = 1024 * (t.val % 8) + (y 1).val) :
    scoreRow m c t y = V m c main_v2 i := by
  show iblk m c 1 t y = _
  unfold iblk
  rw [View.read_apply]
  show V m c main_v2 _ = _
  congr 1
  funext a
  apply Fin.ext
  match a with
  | ⟨0, _⟩ => show win0_1.index t 0 * 1 + 1 * (y 0).val = (i 0).val; rw [(idx_row1 t).1, h0]; have hy : (y 0).val < 1 := (y 0).isLt; omega
  | ⟨1, _⟩ => show win0_1.index t 1 * 1024 + 1 * (y 1).val = (i 1).val; rw [(idx_row1 t).2, h1]; omega

theorem labelCol_read (c : Dev nD) (t : Fin cfg0.N) (y : S1024x1.Idx) (i : S8192x1.Idx)
    (h0 : (i 0).val = 1024 * (t.val / 8) + (y 0).val) (h1 : (i 1).val = 0) :
    labelCol m c t y = V m c main_v3 i := by
  show iblk m c 2 t y = _
  unfold iblk
  rw [View.read_apply]
  show V m c main_v3 _ = _
  congr 1
  funext a
  apply Fin.ext
  match a with
  | ⟨0, _⟩ => show win0_2.index t 0 * 1024 + 1 * (y 0).val = (i 0).val; rw [(idx_col2 t).1, h0]; omega
  | ⟨1, _⟩ => show win0_2.index t 1 * 1 + 1 * (y 1).val = (i 1).val; rw [(idx_col2 t).2, h1]; have hy : (y 1).val < 1 := (y 1).isLt; omega

theorem labelRow_read (c : Dev nD) (t : Fin cfg0.N) (y : S1x1024.Idx) (i : S1x8192.Idx)
    (h0 : (i 0).val = 0) (h1 : (i 1).val = 1024 * (t.val % 8) + (y 1).val) :
    labelRow m c t y = V m c main_v4 i := by
  show iblk m c 3 t y = _
  unfold iblk
  rw [View.read_apply]
  show V m c main_v4 _ = _
  congr 1
  funext a
  apply Fin.ext
  match a with
  | ⟨0, _⟩ => show win0_3.index t 0 * 1 + 1 * (y 0).val = (i 0).val; rw [(idx_row3 t).1, h0]; have hy : (y 0).val < 1 := (y 0).isLt; omega
  | ⟨1, _⟩ => show win0_3.index t 1 * 1024 + 1 * (y 1).val = (i 1).val; rw [(idx_row3 t).2, h1]; omega

/-! ## What the host leaves in the four arrays: the arguments, reshaped -/

theorem V_v1 (c : Dev nD) : (V m c main_v1 : S8192x1.Idx → Ideal .f32)
    = shapeCast S8192x1 (shapeCast S8192 (arg0 m c) shapeCasts_S8192x1_S8192) shapeCasts_S8192_S8192x1 := by
  show StableHlo.after hostOps0 (fun b => m (c, b)) (Proc.devRef .tc main_v1) = _
  after_results
  rfl

theorem V_v2 (c : Dev nD) : (V m c main_v2 : S1x8192.Idx → Ideal .f32)
    = shapeCast S1x8192 (shapeCast S8192 (arg0 m c) shapeCasts_S8192x1_S8192) shapeCasts_S8192_S1x8192 := by
  show StableHlo.after hostOps0 (fun b => m (c, b)) (Proc.devRef .tc main_v2) = _
  after_results
  rfl

theorem V_v3 (c : Dev nD) : (V m c main_v3 : S8192x1.Idx → Ideal .f32)
    = shapeCast S8192x1 (arg1 m c) shapeCasts_S8192_S8192x1 := by
  show StableHlo.after hostOps0 (fun b => m (c, b)) (Proc.devRef .tc main_v3) = _
  after_results
  rfl

theorem V_v4 (c : Dev nD) : (V m c main_v4 : S1x8192.Idx → Ideal .f32)
    = shapeCast S1x8192 (arg1 m c) shapeCasts_S8192_S1x8192 := by
  show StableHlo.after hostOps0 (fun b => m (c, b)) (Proc.devRef .tc main_v4) = _
  after_results
  rfl

/-- A reshape keeps the row-major order, so entry (n, 0) of the [8192, 1] layouts and entry (0, n) of the [1, 8192]
    layouts are both the n-th number. -/
theorem v1_apply (c : Dev nD) (n : Fin 8192) :
    (V m c main_v1 : S8192x1.Idx → Ideal .f32) (ix2 n (0 : Fin 1)) = arg0 m c (ix2 n (0 : Fin 1)) := by
  rw [V_v1]
  rw [shapeCast_apply _ shapeCasts_S8192_S8192x1 (ix2 n (0 : Fin 1)) (ix1 n)
    (by rewrite [Shape.rowMajor_val_two, Shape.rowMajor_val_one]; show n.val = n.val * 1 + 0; omega)]
  exact shapeCast_apply _ shapeCasts_S8192x1_S8192 (ix1 n) (ix2 n (0 : Fin 1))
    (by rewrite [Shape.rowMajor_val_two, Shape.rowMajor_val_one]; show n.val * 1 + 0 = n.val; omega)

theorem v2_apply (c : Dev nD) (n : Fin 8192) :
    (V m c main_v2 : S1x8192.Idx → Ideal .f32) (ix2 (0 : Fin 1) n) = arg0 m c (ix2 n (0 : Fin 1)) := by
  rw [V_v2]
  rw [shapeCast_apply _ shapeCasts_S8192_S1x8192 (ix2 (0 : Fin 1) n) (ix1 n)
    (by rewrite [Shape.rowMajor_val_two, Shape.rowMajor_val_one]; show n.val = 0 * 8192 + n.val; omega)]
  exact shapeCast_apply _ shapeCasts_S8192x1_S8192 (ix1 n) (ix2 n (0 : Fin 1))
    (by rewrite [Shape.rowMajor_val_two, Shape.rowMajor_val_one]; show n.val * 1 + 0 = n.val; omega)

theorem v3_apply (c : Dev nD) (n : Fin 8192) :
    (V m c main_v3 : S8192x1.Idx → Ideal .f32) (ix2 n (0 : Fin 1)) = arg1 m c (ix1 n) := by
  rw [V_v3]
  exact shapeCast_apply _ shapeCasts_S8192_S8192x1 (ix2 n (0 : Fin 1)) (ix1 n)
    (by rewrite [Shape.rowMajor_val_two, Shape.rowMajor_val_one]; show n.val = n.val * 1 + 0; omega)

theorem v4_apply (c : Dev nD) (n : Fin 8192) :
    (V m c main_v4 : S1x8192.Idx → Ideal .f32) (ix2 (0 : Fin 1) n) = arg1 m c (ix1 n) := by
  rw [V_v4]
  exact shapeCast_apply _ shapeCasts_S8192_S1x8192 (ix2 (0 : Fin 1) n) (ix1 n)
    (by rewrite [Shape.rowMajor_val_two, Shape.rowMajor_val_one]; show n.val = 0 * 8192 + n.val; omega)

/-! ## The four block reads -/

theorem scoreCol_apply (c : Dev nD) (t : Fin cfg0.N) (p : Fin 1024) :
    scoreCol m c t (ix2 p (0 : Fin 1)) = score (arg0 m c) (tileIdx (tileRow (step t)) p) := by
  rw [scoreCol_read m c t (ix2 p (0 : Fin 1)) (ix2 (tileIdx (tileRow (step t)) p) (0 : Fin 1)) rfl rfl]
  exact v1_apply m c _

theorem scoreRow_apply (c : Dev nD) (t : Fin cfg0.N) (q : Fin 1024) :
    scoreRow m c t (ix2 (0 : Fin 1) q) = score (arg0 m c) (tileIdx (tileCol (step t)) q) := by
  rw [scoreRow_read m c t (ix2 (0 : Fin 1) q) (ix2 (0 : Fin 1) (tileIdx (tileCol (step t)) q)) rfl rfl]
  exact v2_apply m c _

theorem labelCol_apply (c : Dev nD) (t : Fin cfg0.N) (p : Fin 1024) :
    labelCol m c t (ix2 p (0 : Fin 1)) = label (arg1 m c) (tileIdx (tileRow (step t)) p) := by
  rw [labelCol_read m c t (ix2 p (0 : Fin 1)) (ix2 (tileIdx (tileRow (step t)) p) (0 : Fin 1)) rfl rfl]
  exact v3_apply m c _

theorem labelRow_apply (c : Dev nD) (t : Fin cfg0.N) (q : Fin 1024) :
    labelRow m c t (ix2 (0 : Fin 1) q) = label (arg1 m c) (tileIdx (tileCol (step t)) q) := by
  rw [labelRow_read m c t (ix2 (0 : Fin 1) q) (ix2 (0 : Fin 1) (tileIdx (tileCol (step t)) q)) rfl rfl]
  exact v4_apply m c _

end Cert.KernelIdeal.Blocks

end
-- ==== Proof.Accum.lean ====
/-
  The kernel's result: the loss of `Cert.PairLoss`.

  At step t of its 64 the body adds the step's tile sum — the sum, over the 1024 × 1024 pairs (row p of the column
  blocks, column q of the row blocks), of the pair's term — onto the [1, 1] accumulator, which the first step has set
  to zero.  So after step n the accumulator holds the sum of the tile sums of steps 0 … n (by induction on the step),
  and after the last step, the only one whose accumulator is written back to the result array, the array holds the
  sum of all 64.  The 64 tiles, each summed by rows, make up the whole square of pairs (`sum_tiles`), so this is the
  total of `Cert.PairLoss`.  After the region the host reads the array's one entry, divides it by the number of ordered
  pairs and returns it as a [1] array: the loss.
-/
import proofs.«147201_j32341103739407_1_alg».proof.Proof.Gen.KernelIdeal.Frame
import proofs.«147201_j32341103739407_1_alg».proof.Proof.PairSum
import proofs.«147201_j32341103739407_1_alg».proof.Proof.TileSum
import proofs.«147201_j32341103739407_1_alg».proof.Proof.TileValue
import proofs.«147201_j32341103739407_1_alg».proof.Proof.Pieces
import proofs.«147201_j32341103739407_1_alg».proof.Proof.Blocks
import Idealize.ShloMosaic.Lib.Pipeline.Value
import Idealize.ShloMosaic.Lib.StableHlo.Run
import Idealize.ShloMosaic.Lib.Tactic

noncomputable section

namespace Cert.KernelIdeal.Accum

open Idealize.ShloMosaic Idealize.ShloMosaic.TcCoe Idealize.SL.Sem Idealize.ShloMosaic.ValueIdx
open Idealize.ShloMosaic.Pipeline (Dat)
open Cert.KernelIdeal Cert.KernelIdeal.Gen Cert.PairLoss Cert.KernelIdeal.Blocks

variable (m : (ℓ : Loc nD τ sig) → Buf (Elt Ideal) ℓ) (ρ : Dev nD → PrngReg)

/-- The tile sum of step `t`, over the arguments. -/
def stepSum (c : Dev nD) (t : Fin 64) : EReal :=
  ∑ p : Fin 1024, ∑ q : Fin 1024, term (arg0 m c) (arg1 m c) (tileIdx (tileRow t) p) (tileIdx (tileCol t) q)

/-- The body's tile sum at step `t` is it: each block entry is the argument's entry at the tile's row or column. -/
theorem pay3_step (c : Dev nD) (t : Fin cfg0.N) (j : S1.Idx) :
    k0_pay3 (F := Ideal) (scoreCol m c t) (scoreRow m c t) (labelCol m c t) (labelRow m c t) j = stepSum m c (step t) := by
  rw [TileValue.tileSum_apply]
  refine Finset.sum_congr rfl fun p _ => Finset.sum_congr rfl fun q _ => ?_
  rw [scoreCol_apply, scoreRow_apply, labelCol_apply, labelRow_apply]
  rfl

/-- The accumulate: the old value plus the step's sum (the sum's one entry laid out as [1, 1]). -/
theorem pay1_apply (s : FVec Ideal S1 .f32) (old : Vec Ideal S1x1 .f32) (j : S1x1.Idx) :
    k0_pay1 (F := Ideal) s old j = old j + s (ix1 (0 : Fin 1)) := by
  unfold k0_pay1
  show shapeCast S1x1 old shapeCasts_S1x1_S1x1 j + shapeCast S1x1 s shapeCasts_S1_S1x1 j = _
  rw [shapeCast_self]
  congr 1
  refine shapeCast_apply s shapeCasts_S1_S1x1 j (ix1 (0 : Fin 1)) ?_
  rw [Shape.rowMajor_val_two, Shape.rowMajor_val_one]
  have h0 : (j 0).val < 1 := (j 0).isLt
  have h1 : (j 1).val < 1 := (j 1).isLt
  show 0 = (j 0).val * 1 + (j 1).val
  omega

/-- The reset: the zero. -/
theorem pay2_apply (j : S1x1.Idx) : k0_pay2 (F := Ideal) j = 0 := Ideal.ofBits_zero_f32

/-- The running sum after step `n`: the tile sums of steps 0 … n, added in order. -/
def running (c : Dev nD) : (n : ℕ) → n < 64 → EReal
  | 0, h => stepSum m c ⟨0, h⟩
  | n + 1, h => running c n (Nat.lt_of_succ_lt h) + stepSum m c ⟨n + 1, h⟩

theorem hN : cfg0.N = 64 := N_0

/-- After step `n` the accumulator holds the running sum — by induction on the step. -/
theorem outsAt_eq (c : Dev nD) : ∀ (n : ℕ) (h : n < cfg0.N), outsAt0 m c n h = fun _ => running m c n (lt_of_lt_of_eq h hN)
  | 0, h => by
    refine (outsAt0_A m c ⟨0, h⟩ rfl).trans ?_
    refine (Pieces.out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl)
      (scoreCol m c ⟨0, h⟩) (scoreRow m c ⟨0, h⟩) (labelCol m c ⟨0, h⟩) (labelRow m c ⟨0, h⟩)).trans ?_
    funext j
    rw [pay1_apply, pay3_step, pay2_apply, zero_add]
    rfl
  | n + 1, h => by
    have hB : ¬(⟨n + 1, h⟩ : Fin cfg0.N).val % 64 = 0 := by
      have := lt_of_lt_of_eq h hN
      dsimp only
      omega
    refine (outsAt0_B m c ⟨n + 1, h⟩ hB).trans ?_
    refine (Pieces.out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hc => hB ((hcond0_0 ⟨n + 1, h⟩).mp hc))
      (scoreCol m c ⟨n + 1, h⟩) (scoreRow m c ⟨n + 1, h⟩) (labelCol m c ⟨n + 1, h⟩) (labelRow m c ⟨n + 1, h⟩)
      (outsAt0 m c n (Nat.lt_of_succ_lt h))).trans ?_
    funext j
    rw [pay1_apply, pay3_step, outsAt_eq c n (Nat.lt_of_succ_lt h)]
    rfl

/-- The running sum is the sum of the tile sums so far; -/
theorem running_eq_sum (c : Dev nD) : ∀ (n : ℕ) (h : n < 64),
    running m c n h = ∑ t : Fin (n + 1), stepSum m c ⟨t.val, lt_of_lt_of_le t.isLt h⟩
  | 0, h => by rw [Fin.sum_univ_one]; rfl
  | n + 1, h => by
    rw [Fin.sum_univ_castSucc]
    show running m c n _ + _ = _
    rw [running_eq_sum c n]
    rfl

/-- after the last step, the sum over the whole square. -/
theorem running_last (c : Dev nD) : running m c 63 (by decide) = total (arg0 m c) (arg1 m c) := by
  rw [running_eq_sum]
  exact sum_tiles (fun i j => term (arg0 m c) (arg1 m c) i j)

/-- The last step, as a point of the grid. -/
abbrev lastStep : Fin cfg0.N := ⟨63, by rw [hN]; decide⟩

/-- What the result array holds after the region: the total, at its one entry. -/
abbrev result (c : Dev nD) : Buf (Elt Ideal) ((c : Thread nD τ).loc main_v5) := fun _ => total (arg0 m c) (arg1 m c)

/-- The one write-back, at the last step, writes the accumulator — the running sum of all 64 steps — over the whole
    [1, 1] array (its one block at zero offsets is the array). -/
theorem flushed_eq (c : Dev nD) (t : Fin cfg0.N) (hf : (cfg0.win 4).flush t = true) :
    (dats m 0 c).flushed 4 t = ((cfg0.win 4).blk t).view.read (Elt Ideal) (result m c) := by
  have h63 : t.val = 63 := by have := (flush0_4 t).mp hf; have := lt_of_lt_of_eq t.isLt hN; omega
  obtain rfl : t = lastStep := Fin.ext h63
  show (cfg0.win 4).cut (grid0.coords lastStep) ((dats m 0 c).after 4 lastStep) = _
  rw [after0_4, outsAt_eq]
  have hz' : (fun a => win0_4.index lastStep a * main_v5.ty.shape.size a) = fun _ => 0 := funext fun a => by fin_cases a <;> decide +kernel
  refine Eq.trans ?_ (Memref.read_access_unit_zero (Elt Ideal) main_v5 hz' (fun a => by rw [congrFun hz' a]; simp) (result m c)).symm
  funext j
  exact running_last m c

/-- So the result array ends holding the total: the last step's block is the whole array. -/
theorem final (c : Dev nD) : (dats m 0 c).arrAt 4 cfg0.N = result m c :=
  (dats m 0 c).arrAt_eq_of_cover 4 (result m c) (flushed_eq m c) fun i =>
    ⟨lastStep, (flush0_4 lastStep).mpr rfl, by
      show i ∈ ((View.whole main_v5).slice (win0_4.rect lastStep)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index lastStep 0 * win0_4.size 0 ≤ (i 0 : Nat)
          ∧ (i 0 : Nat) < win0_4.index lastStep 0 * win0_4.size 0 + win0_4.xsize (grid0.coords lastStep) 0
        rw [show win0_4.index lastStep 0 * win0_4.size 0 = 0 from by decide +kernel,
          show win0_4.xsize (grid0.coords lastStep) 0 = 1 from by decide +kernel]
        omega
      | ⟨1, _⟩ =>
        show win0_4.index lastStep 1 * win0_4.size 1 ≤ (i 1 : Nat)
          ∧ (i 1 : Nat) < win0_4.index lastStep 1 * win0_4.size 1 + win0_4.xsize (grid0.coords lastStep) 1
        rw [show win0_4.index lastStep 1 * win0_4.size 1 = 0 from by decide +kernel,
          show win0_4.xsize (grid0.coords lastStep) 1 = 1 from by decide +kernel]
        omega⟩

/-- The host's lines after the region: the array's one entry, divided by the number of ordered pairs, as a [1] array. -/
theorem tail_eq (c : Dev nD) :
    Pipeline.afterTail₀ cfgs (dats m) 0 (V0 m) [hostOps1] c main_v8 = loss (arg0 m c) (arg1 m c) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v5)
      = result m c :=
    (Pipeline.withArrays_arr spec0 launch0.win.arr_inj c _ _ 4).trans (final m c)
  rw [hw]
  rfl

/-- THE RUN, READ: every weakly fair execution of the idealized kernel ends with the result at the loss of its two
    arguments, and the arguments unchanged. -/
theorem run : θ_run defs (onTc (τ := τ) (main (F := Ideal))) ⟨m, fun _ => 0, ρ⟩ fun r => ∀ c : Dev nD,
      r.2.mem ((c.tc : Thread nD τ).loc main_v8) = loss (arg0 m c) (arg1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Accum

end
-- ==== Proof.lean ====
/-
  A pairwise ranking loss, as a kernel and as its reference: equal over the extended reals.

  For 8192 scores o and labels g the loss is the sum, over all ordered pairs (i, j), of
      w(i, j) · max(0, 1 + y(i, j) · (oᵢ - oⱼ)),   y = -1 if gᵢ - gⱼ < 0 else +1,   w = 1 if |gᵢ - gⱼ| > 0.1 else 0,
  divided by the number of ordered pairs of distinct members, 8192 · 8191.

  The reference forms the 8192 × 8192 array of terms and sums it in one reduction.  The kernel never forms it: it walks
  the 8 × 8 grid of 1024 × 1024 tiles of the square, at each step computes the tile's terms from a column block and a
  row block of each argument, sums them by rows, and adds the tile sum onto a [1, 1] accumulator that the first step has
  zeroed; after the last step the accumulator is written out, and the host divides by the number of pairs.

  Entry by entry the two programs compute the same term from the same words (the kernel widens the 1-bit weight to an
  integer and reads it signed, the reference reads the bit unsigned: the same 0 or 1).  What differs is the order and
  grouping of one finite sum, and addition of extended reals is commutative and associative, infinities included; so
  no finiteness of the inputs is needed and the precondition is never opened.  Both sums start from the zero word,
  which is the extended real 0, and both results are divided by the same word by the same host division.

  The modules: `PairSum` states the loss as one function of the two arguments; `TileSum` is the regrouping of the
  square into tiles; `RefSide` reads the reference operation by operation down to that function; `TileValue` reads
  the kernel body's tile sum, `Blocks` its input blocks, `Pieces` what a step leaves in the accumulator, and `Accum`
  the induction over the steps, the written-back array, the host's last lines and the run.  Here the five claims are
  put together: the three frames (the kernels' from their generated frame runs, the reference's from its generated run
  with the result dropped), the idealization (nothing was rewritten), and the equality of the two results.
-/
import proofs.«147201_j32341103739407_1_alg».proof.Defs
import proofs.«147201_j32341103739407_1_alg».proof.Proof.Gen.Kernel
import proofs.«147201_j32341103739407_1_alg».proof.Proof.Gen.Kernel.Frame
import proofs.«147201_j32341103739407_1_alg».proof.Proof.Gen.KernelIdeal
import proofs.«147201_j32341103739407_1_alg».proof.Proof.Gen.KernelIdeal.Frame
import proofs.«147201_j32341103739407_1_alg».proof.Proof.Gen.ReferenceIdeal
import proofs.«147201_j32341103739407_1_alg».proof.Proof.Gen.ReferenceIdeal.Run
import proofs.«147201_j32341103739407_1_alg».proof.Proof.Gen.ReferenceIdeal.Read
import proofs.«147201_j32341103739407_1_alg».proof.Proof.Gen.Pre_finite_inputs
import proofs.«147201_j32341103739407_1_alg».proof.Proof.PairSum
import proofs.«147201_j32341103739407_1_alg».proof.Proof.RefSide
import proofs.«147201_j32341103739407_1_alg».proof.Proof.Accum
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From arguments that agree, the kernel ends at the loss of its arguments and the reference at the loss of its own:
    the same [1] array. -/
theorem algebraic : Cert.algebraic_KernelIdeal_ReferenceIdeal := by
  intro m ρ m' ρ' _ hagree
  refine ⟨fun c => Cert.PairLoss.loss (Cert.KernelIdeal.Blocks.arg0 m c) (Cert.KernelIdeal.Blocks.arg1 m c),
    Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
